-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4x1024x1024 : Shape := ⟨3, ![4, 1024, 1024]⟩
abbrev S4x1024 : Shape := ⟨2, ![4, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_arg4 : FVec F S4x1024 .f32) (main_arg5 : FVec F S4x1024x1024 .f32) (main_arg6 : FVec F S4x1024 .f32) (main_v13 : IVec S_ 1) (main_v16 : IVec S4x1024x1024 1) : IVec S_ 1 :=
  let main_c_5 : IVec S_ 1 := constantI S_ 1 1#1
  let main_v17 : IVec S_ 1 := (fun x v => Host.reduce IntOp.andi x v reducesTo_S4x1024x1024_S_d0_1_2 h_S_) main_v16 main_c_5
  let main_v18 : IVec S_ 1 := andi main_v13 main_v17
  let main_v19 : FVec F S4x1024 .f32 := Host.absf main_arg4
  let main_cst_6 : FVec F S_ .f32 := constant S_ .f32 0x7F800000#32
  let main_v20 : FVec F S4x1024 .f32 := broadcastInDim S4x1024 ![] bcast_S_S4x1024 main_cst_6
  let main_v21 : IVec S4x1024 1 := cmpf .olt main_v19 main_v20
  let main_c_7 : IVec S_ 1 := constantI S_ 1 1#1
  let main_v22 : IVec S_ 1 := (fun x v => Host.reduce IntOp.andi x v reducesTo_S4x1024_S_d0_1 h_S_) main_v21 main_c_7
  let main_v23 : IVec S_ 1 := andi main_v18 main_v22
  let main_v24 : FVec F S4x1024x1024 .f32 := Host.absf main_arg5
  let main_cst_8 : FVec F S_ .f32 := constant S_ .f32 0x7F800000#32
  let main_v25 : FVec F S4x1024x1024 .f32 := broadcastInDim S4x1024x1024 ![] bcast_S_S4x1024x1024 main_cst_8
  let main_v26 : IVec S4x1024x1024 1 := cmpf .olt main_v24 main_v25
  let main_c_9 : IVec S_ 1 := constantI S_ 1 1#1
  let main_v27 : IVec S_ 1 := (fun x v => Host.reduce IntOp.andi x v reducesTo_S4x1024x1024_S_d0_1_2 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S4x1024x1024 .f32) (main_arg4 : FVec F S4x1024 .f32) (main_arg5 : FVec F S4x1024x1024 .f32) (main_arg6 : FVec F S4x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S4x1024x1024 .f32 := Host.absf main_arg3
  let main_cst_4 : FVec F S_ .f32 := constant S_ .f32 0x7F800000#32
  let main_v15 : FVec F S4x1024x1024 .f32 := broadcastInDim S4x1024x1024 ![] bcast_S_S4x1024x1024 main_cst_4
  let main_v16 : IVec S4x1024x1024 1 := cmpf .olt main_v14 main_v15
  fn_part1 (F := F) main_arg4 main_arg5 main_arg6 main_v13 main_v16
-- ==== Kernel.lean ====
abbrev S8192x1024 : Shape := ⟨2, ![8192, 1024]⟩
abbrev S4x1024x1024 : Shape := ⟨3, ![4, 1024, 1024]⟩
abbrev S4x1024 : Shape := ⟨2, ![4, 1024]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x1024, .bf16⟩
  | .hbm, ⟨8, _⟩ => ⟨S4x1024x1024, .bf16⟩
  | .hbm, ⟨9, _⟩ => ⟨S4x1024, .f32⟩
  | .hbm, ⟨10, _⟩ => ⟨S8192x1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4x1024x1024, .bf16⟩
  | .local _ .vmem, ⟨8, _⟩ => ⟨S4x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v0_0 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S4x1024x1024_S1x1024x1024_0_0_0 : ∀ a, (![0, 0, 0] : Fin 3 → Nat) a + S1x1024x1024.size a ≤ S4x1024x1024.size a
  h_S1x1024x1024 : 0 < S1x1024x1024.numel
  shapeCasts_S1x1024x1024_S1024x1024 : S1x1024x1024.ShapeCasts S1024x1024
  inb_S4x1024_S1x1024_0_0 : ∀ a, (![0, 0] : Fin 2 → Nat) a + S1x1024.size a ≤ S4x1024.size a
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  inb_S4x1024x1024_S1x1024x1024_1_0_0 : ∀ a, (![1, 0, 0] : Fin 3 → Nat) a + S1x1024x1024.size a ≤ S4x1024x1024.size a
  inb_S4x1024_S1x1024_1_0 : ∀ a, (![1, 0] : Fin 2 → Nat) a + S1x1024.size a ≤ S4x1024.size a
  inb_S4x1024x1024_S1x1024x1024_2_0_0 : ∀ a, (![2, 0, 0] : Fin 3 → Nat) a + S1x1024x1024.size a ≤ S4x1024x1024.size a
  inb_S4x1024_S1x1024_2_0 : ∀ a, (![2, 0] : Fin 2 → Nat) a + S1x1024.size a ≤ S4x1024.size a
  inb_S4x1024x1024_S1x1024x1024_3_0_0 : ∀ a, (![3, 0, 0] : Fin 3 → Nat) a + S1x1024x1024.size a ≤ S4x1024x1024.size a
  inb_S4x1024_S1x1024_3_0 : ∀ a, (![3, 0] : Fin 2 → Nat) a + S1x1024.size a ≤ S4x1024.size a
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1024x1024.size a ≤ S4x1024x1024.size a
  hwx0_3 : ∀ i : grid0.Coords, EltTy.bits .bf16 = 32 ∨ (Rect.block (s := S4x1024x1024) S4x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x1024x1024.size a ≤ S4x1024x1024.size a
  hwx0_4 : ∀ i : grid0.Coords, EltTy.bits .bf16 = 32 ∨ (Rect.block (s := S4x1024x1024) S4x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S4x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S4x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4x1024x1024 : Shape := ⟨3, ![4, 1024, 1024]⟩
abbrev S4x1024 : Shape := ⟨2, ![4, 1024]⟩
abbrev S4x1024x8192 : Shape := ⟨3, ![4, 1024, 8192]⟩
abbrev S4x8192x1024 : Shape := ⟨3, ![4, 8192, 1024]⟩
abbrev S4x1x1024 : Shape := ⟨3, ![4, 1, 1024]⟩
abbrev S1x8192x1024 : Shape := ⟨3, ![1, 8192, 1024]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x1024x1024, .f32⟩
  | .hbm, ⟨4, _⟩ => ⟨S4x1024, .f32⟩
  | .hbm, ⟨5, _⟩ => ⟨S4x1024x1024, .f32⟩
  | .hbm, ⟨6, _⟩ => ⟨S4x1024, .f32⟩
  | .hbm, ⟨7, _⟩ => ⟨S4x1024x8192, .f32⟩
  | .hbm, ⟨8, _⟩ => ⟨S4x8192x1024, .f32⟩
  | .hbm, ⟨9, _⟩ => ⟨S4x1x1024, .f32⟩
  | .hbm, ⟨10, _⟩ => ⟨S4x8192x1024, .f32⟩
  | .hbm, ⟨11, _⟩ => ⟨S4x8192x1024, .f32⟩
  | .hbm, ⟨12, _⟩ => ⟨S4x1024x8192, .f32⟩
  | .hbm, ⟨13, _⟩ => ⟨S4x8192x1024, .f32⟩
  | .hbm, ⟨14, _⟩ => ⟨S4x1x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | .hbm, ⟨18, _⟩ => ⟨S1x8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1x8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1x8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S1x8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S4x1024x8192_S4x8192x1024_0_2_1 : S4x1024x8192.Transposes [0, 2, 1] S4x8192x1024
  bcast_S4x1024_S4x1x1024_0_2 : S4x1024.BroadcastsInDim S4x1x1024 (![0, 2] : Fin 2 → Fin S4x1x1024.rank)
  bcast_S4x1x1024_S4x8192x1024_0_1_2 : S4x1x1024.BroadcastsInDim S4x8192x1024 (![0, 1, 2] : Fin 3 → Fin S4x8192x1024.rank)
  slices_S4x8192x1024_S1x8192x1024_0_0_0 : S4x8192x1024.Slices ![0, 0, 0] S1x8192x1024
  shapeCasts_S1x8192x1024_S8192x1024 : S1x8192x1024.ShapeCasts S8192x1024
  bcast_S_S8192x1024 : S_.BroadcastsInDim S8192x1024 (![] : Fin 0 → Fin S8192x1024.rank)
  slices_S4x8192x1024_S1x8192x1024_1_0_0 : S4x8192x1024.Slices ![1, 0, 0] S1x8192x1024
  slices_S4x8192x1024_S1x8192x1024_2_0_0 : S4x8192x1024.Slices ![2, 0, 0] S1x8192x1024
  slices_S4x8192x1024_S1x8192x1024_3_0_0 : S4x8192x1024.Slices ![3, 0, 0] S1x8192x1024
  dot_S4x1024x1024_S8192x1024_S4x1024x8192_2_1_01_0_n_n_wf : DotDims.WF S4x1024x1024 S8192x1024 S4x1024x8192 [2] [1] [0, 1] [0] [] []

variable [Facts₀]

def dot_S4x1024x1024_S8192x1024_S4x1024x8192_2_1_01_0_n_n : DotDims S4x1024x1024 S8192x1024 S4x1024x8192 where
  lhsContracting := [2]
  rhsContracting := [1]
  lhsNonContracting := [0, 1]
  rhsNonContracting := [0]
  lhsBatch := []
  rhsBatch := []
  wf := dot_S4x1024x1024_S8192x1024_S4x1024x8192_2_1_01_0_n_n_wf

class Facts : Prop extends Facts₀ where

variable [Facts]
-- ==== Proof.CellSpec.lean ====
/-
  The recurrent cell both programs compute, as functions of the argument arrays, index by index, on the extended reals.

  For a batch of n rows, input width 1024, hidden width 1024 and four gates (input, forget, output, candidate), gate g's
  pre-activation at row b and hidden unit j is
      x_b · W_{g,j} + h_b · U_{g,j} + β_{g,j}
  (two inner products over the 1024 input and hidden coordinates, and one bias entry). With σ the logistic function,
      c' = σ(pre₁) · c + σ(pre₀) · tanh(pre₃),        h' = σ(pre₂) · tanh(c').
  The row count n is a parameter: the same definition serves one 256-row block and the whole 8192-row array, and a
  block of the whole array's value is the value of the block (`pre` reads row b of x and of h only).

  One program adds the two bias tables first and the two inner products first; the other adds each bias to its own
  inner product and then the two halves, with the factors of each product in the other order. On the extended reals
  addition is commutative and associative and multiplication commutative, with no side condition at the infinities,
  so the two groupings agree for every input: `pre_of_split_bias`.
-/
import Idealize.ShloMosaic.PureOps.Ideal
import Idealize.ShloMosaic.Lib.ValueIdx

noncomputable section

namespace Cert.CellSpec

open Idealize.ShloMosaic Idealize.ShloMosaic.ValueIdx

/-- Gate `g`'s pre-activation at row `b`, hidden unit `j`: the two inner products and the bias entry. -/
def pre {n : Nat} (x h : (⟨2, ![n, 1024]⟩ : Shape).Idx → EReal) (W U : (⟨3, ![4, 1024, 1024]⟩ : Shape).Idx → EReal)
    (β : (⟨2, ![4, 1024]⟩ : Shape).Idx → EReal) (g : Fin 4) (b : Fin n) (j : Fin 1024) : EReal :=
  ((∑ k : Fin 1024, x (ix2 b k) * W (ix3 g j k)) + (∑ k : Fin 1024, h (ix2 b k) * U (ix3 g j k))) + β (ix2 g j)

/-- The new cell state: forget gate times the old state plus input gate times the candidate. -/
def cellOf {n : Nat} (x h c : (⟨2, ![n, 1024]⟩ : Shape).Idx → EReal) (W U : (⟨3, ![4, 1024, 1024]⟩ : Shape).Idx → EReal)
    (β : (⟨2, ![4, 1024]⟩ : Shape).Idx → EReal) : (⟨2, ![n, 1024]⟩ : Shape).Idx → EReal := fun i =>
  Ideal.logistic (pre x h W U β 1 (i 0) (i 1)) * c i
    + Ideal.logistic (pre x h W U β 0 (i 0) (i 1)) * Ideal.tanh (pre x h W U β 3 (i 0) (i 1))

/-- The new hidden state: output gate times tanh of the new cell state. -/
def hiddenOf {n : Nat} (x h c : (⟨2, ![n, 1024]⟩ : Shape).Idx → EReal) (W U : (⟨3, ![4, 1024, 1024]⟩ : Shape).Idx → EReal)
    (β : (⟨2, ![4, 1024]⟩ : Shape).Idx → EReal) : (⟨2, ![n, 1024]⟩ : Shape).Idx → EReal := fun i =>
  Ideal.logistic (pre x h W U β 2 (i 0) (i 1)) * Ideal.tanh (cellOf x h c W U β i)

/-- The entrywise sum of the two bias tables. -/
def biasSum (bW bU : (⟨2, ![4, 1024]⟩ : Shape).Idx → EReal) : (⟨2, ![4, 1024]⟩ : Shape).Idx → EReal := fun a => bW a + bU a

/-- Each bias added to its own inner product, the factors of each product swapped, the two halves added last: the same
    number as `pre` over the summed bias table. Only commutativity and associativity of `+` and commutativity of `*`
    on the extended reals are used, so nothing is asked of the inputs. -/
theorem pre_of_split_bias {n : Nat} (x h : (⟨2, ![n, 1024]⟩ : Shape).Idx → EReal)
    (W U : (⟨3, ![4, 1024, 1024]⟩ : Shape).Idx → EReal) (bW bU : (⟨2, ![4, 1024]⟩ : Shape).Idx → EReal)
    (g : Fin 4) (b : Fin n) (j : Fin 1024) :
    ((∑ k : Fin 1024, W (ix3 g j k) * x (ix2 b k)) + bW (ix2 g j))
        + ((∑ k : Fin 1024, U (ix3 g j k) * h (ix2 b k)) + bU (ix2 g j))
      = pre x h W U (biasSum bW bU) g b j := by
  unfold pre biasSum
  rw [add_add_add_comm]
  have e1 : (∑ k : Fin 1024, W (ix3 g j k) * x (ix2 b k)) = ∑ k : Fin 1024, x (ix2 b k) * W (ix3 g j k) :=
    Finset.sum_congr rfl fun k _ => mul_comm _ _
  have e2 : (∑ k : Fin 1024, U (ix3 g j k) * h (ix2 b k)) = ∑ k : Fin 1024, h (ix2 b k) * U (ix3 g j k) :=
    Finset.sum_congr rfl fun k _ => mul_comm _ _
  rw [e1, e2]

/-! ## A block of rows

`pre` at row b reads row b of x and of h and nothing else of them, and the gating chain at (b, j) reads c at (b, j)
only. So if a 256-row block agrees, row p of the block with row P of the whole array, on x and h (every column) and on c
(at column q), and the weights and the bias table are the same, the block's cell at (p, q) is the whole array's at (P, q). -/

theorem pre_block {n : Nat} (X H : (⟨2, ![n, 1024]⟩ : Shape).Idx → EReal) (x h : (⟨2, ![256, 1024]⟩ : Shape).Idx → EReal)
    (W U : (⟨3, ![4, 1024, 1024]⟩ : Shape).Idx → EReal) (β : (⟨2, ![4, 1024]⟩ : Shape).Idx → EReal)
    (p : Fin 256) (P : Fin n)
    (hx : ∀ k : Fin 1024, x (ix2 p k) = X (ix2 P k)) (hh : ∀ k : Fin 1024, h (ix2 p k) = H (ix2 P k))
    (g : Fin 4) (q : Fin 1024) :
    pre x h W U β g p q = pre X H W U β g P q := by
  unfold pre
  rw [Finset.sum_congr rfl fun k _ => congrArg (· * W (ix3 g q k)) (hx k),
    Finset.sum_congr rfl fun k _ => congrArg (· * U (ix3 g q k)) (hh k)]

theorem cellOf_block {n : Nat} (X H C : (⟨2, ![n, 1024]⟩ : Shape).Idx → EReal) (x h c : (⟨2, ![256, 1024]⟩ : Shape).Idx → EReal)
    (W U W' U' : (⟨3, ![4, 1024, 1024]⟩ : Shape).Idx → EReal) (β β' : (⟨2, ![4, 1024]⟩ : Shape).Idx → EReal)
    (hW : W' = W) (hU : U' = U) (hβ : β' = β) (p : Fin 256) (P : Fin n) (q : Fin 1024)
    (hx : ∀ k : Fin 1024, x (ix2 p k) = X (ix2 P k)) (hh : ∀ k : Fin 1024, h (ix2 p k) = H (ix2 P k))
    (hc : c (ix2 p q) = C (ix2 P q)) :
    cellOf x h c W' U' β' (ix2 p q) = cellOf X H C W U β (ix2 P q) := by
  subst hW hU hβ
  show Ideal.logistic (pre x h W' U' β' 1 p q) * c (ix2 p q)
      + Ideal.logistic (pre x h W' U' β' 0 p q) * Ideal.tanh (pre x h W' U' β' 3 p q)
    = Ideal.logistic (pre X H W' U' β' 1 P q) * C (ix2 P q)
      + Ideal.logistic (pre X H W' U' β' 0 P q) * Ideal.tanh (pre X H W' U' β' 3 P q)
  rw [pre_block X H x h W' U' β' p P hx hh 1 q, pre_block X H x h W' U' β' p P hx hh 0 q,
    pre_block X H x h W' U' β' p P hx hh 3 q, hc]

theorem hiddenOf_block {n : Nat} (X H C : (⟨2, ![n, 1024]⟩ : Shape).Idx → EReal) (x h c : (⟨2, ![256, 1024]⟩ : Shape).Idx → EReal)
    (W U W' U' : (⟨3, ![4, 1024, 1024]⟩ : Shape).Idx → EReal) (β β' : (⟨2, ![4, 1024]⟩ : Shape).Idx → EReal)
    (hW : W' = W) (hU : U' = U) (hβ : β' = β) (p : Fin 256) (P : Fin n) (q : Fin 1024)
    (hx : ∀ k : Fin 1024, x (ix2 p k) = X (ix2 P k)) (hh : ∀ k : Fin 1024, h (ix2 p k) = H (ix2 P k))
    (hc : c (ix2 p q) = C (ix2 P q)) :
    hiddenOf x h c W' U' β' (ix2 p q) = hiddenOf X H C W U β (ix2 P q) := by
  show Ideal.logistic (pre x h W' U' β' 2 p q) * Ideal.tanh (cellOf x h c W' U' β' (ix2 p q))
    = Ideal.logistic (pre X H W U β 2 P q) * Ideal.tanh (cellOf X H C W U β (ix2 P q))
  rw [cellOf_block X H C x h c W U W' U' β β' hW hU hβ p P q hx hh hc]
  subst hW hU hβ
  rw [pre_block X H x h W' U' β' p P hx hh 2 q]

end Cert.CellSpec

end
-- ==== Proof.RefIsSpec.lean ====
/-
  The reference program's results are the cell of `CellSpec`, index by index, at the ideal values.

  The reference forms all four gates at once: the product of W (4 × 1024 × 1024) with x over the shared input
  coordinate, transposed to gate × row × unit, plus the W-side bias broadcast over the rows; the same with U, h and the
  U-side bias; the sum of the two. Entry (g, b, j) of that 4 × 8192 × 1024 array is gate g's pre-activation at row b and
  unit j, with each bias added to its own product and the factors of each product in the order weight × input: by
  `CellSpec.pre_of_split_bias` that is `CellSpec.pre` over the summed bias table. Gate g's 8192 × 1024 table is slice g
  of that array with the unit axis dropped. The logistic function is written out on the host as 1 / (1 + exp(−z)), which
  is the ideal logistic function itself (the literal 1.0 denotes the number 1), and the host's tanh is the ideal tanh.
-/
import proofs.«109954_j24601572671658_1_alg».proof.Proof.Gen.ReferenceIdeal.Read
import proofs.«109954_j24601572671658_1_alg».proof.Proof.CellSpec
import Idealize.ShloMosaic.PureOps.IdealRules

noncomputable section

namespace Cert.ReferenceIdeal.RefValue

open Cert.ReferenceIdeal Cert.ReferenceIdeal.Read Idealize.ShloMosaic Idealize.ShloMosaic.ValueIdx Cert.CellSpec

/-- The literal 1.0 denotes the number 1. -/
theorem one_f32 : Ideal.ofBits .f32 0x3F800000#32 = 1 := IdealRules.sign_bit.ideal_onePat .f32

/-- Entry (g, b, j) of the array of all four gates is gate g's pre-activation at row b and unit j. -/
theorem gates_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S4x8192x1024.Idx) (g : Fin 4) (b : Fin 8192) (j : Fin 1024)
    (h0 : (i 0).val = g.val) (h1 : (i 1).val = b.val) (h2 : (i 2).val = j.val) :
    val_main_v10 (F := Ideal) x0 x1 x3 x4 x5 x6 i = pre (n := 8192) x0 x1 x3 x5 (biasSum x4 x6) g b j := by
  have hi : i = ix3 g b j := funext fun a => Fin.ext (by
    match a with
    | ⟨0, _⟩ => exact h0
    | ⟨1, _⟩ => exact h1
    | ⟨2, _⟩ => exact h2)
  subst hi
  rw [val_main_v10_apply, val_main_v4_apply, val_main_v9_apply, val_main_v1_apply, val_main_v3_apply, val_main_v6_apply,
    val_main_v8_apply, val_main_v0_apply, val_main_v2_apply, val_main_v5_apply, val_main_v7_apply]
  have el0 : ∀ k : Fin 1024, lidx_main_v0 (idx_main_v1 (ix3 g b j)) k = ix3 g j k := fun k => funext fun a => Fin.ext (by
    match a with
    | ⟨0, _⟩ => rfl
    | ⟨1, _⟩ => rfl
    | ⟨2, _⟩ => rfl)
  have er0 : ∀ k : Fin 1024, ridx_main_v0 (idx_main_v1 (ix3 g b j)) k = ix2 b k := fun k => funext fun a => Fin.ext (by
    match a with
    | ⟨0, _⟩ => rfl
    | ⟨1, _⟩ => rfl)
  have el5 : ∀ k : Fin 1024, lidx_main_v5 (idx_main_v6 (ix3 g b j)) k = ix3 g j k := fun k => funext fun a => Fin.ext (by
    match a with
    | ⟨0, _⟩ => rfl
    | ⟨1, _⟩ => rfl
    | ⟨2, _⟩ => rfl)
  have er5 : ∀ k : Fin 1024, ridx_main_v5 (idx_main_v6 (ix3 g b j)) k = ix2 b k := fun k => funext fun a => Fin.ext (by
    match a with
    | ⟨0, _⟩ => rfl
    | ⟨1, _⟩ => rfl)
  have eb2 : idx_main_v2 (idx_main_v3 (ix3 g b j)) = ix2 g j := funext fun a => Fin.ext (by
    match a with
    | ⟨0, _⟩ => rfl
    | ⟨1, _⟩ => rfl)
  have eb7 : idx_main_v7 (idx_main_v8 (ix3 g b j)) = ix2 g j := funext fun a => Fin.ext (by
    match a with
    | ⟨0, _⟩ => rfl
    | ⟨1, _⟩ => rfl)
  simp only [el0, er0, el5, er5, eb2, eb7]
  exact pre_of_split_bias x0 x1 x3 x5 x4 x6 g b j

/-- The input gate's table: slice 0. -/
theorem gate0_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S8192x1024.Idx) :
    val_main_v12 (F := Ideal) x0 x1 x3 x4 x5 x6 i = pre (n := 8192) x0 x1 x3 x5 (biasSum x4 x6) (0 : Fin 4) (i 0) (i 1) := by
  have h0 : (i 0).val < 8192 := (i 0).isLt
  have h1 : (i 1).val < 1024 := (i 1).isLt
  rw [val_main_v12_apply, val_main_v11_apply]
  exact gates_apply x0 x1 x3 x4 x5 x6 _ (0 : Fin 4) (i 0) (i 1) rfl
    (by show ((i 0).val * 1024 + (i 1).val) / 1024 % 8192 = (i 0).val; omega)
    (by show ((i 0).val * 1024 + (i 1).val) % 1024 = (i 1).val; omega)

/-- The forget gate's table: slice 1. -/
theorem gate1_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S8192x1024.Idx) :
    val_main_v20 (F := Ideal) x0 x1 x3 x4 x5 x6 i = pre (n := 8192) x0 x1 x3 x5 (biasSum x4 x6) (1 : Fin 4) (i 0) (i 1) := by
  have h0 : (i 0).val < 8192 := (i 0).isLt
  have h1 : (i 1).val < 1024 := (i 1).isLt
  rw [val_main_v20_apply, val_main_v19_apply]
  exact gates_apply x0 x1 x3 x4 x5 x6 _ (1 : Fin 4) (i 0) (i 1) rfl
    (by show ((i 0).val * 1024 + (i 1).val) / 1024 % 8192 = (i 0).val; omega)
    (by show ((i 0).val * 1024 + (i 1).val) % 1024 = (i 1).val; omega)

/-- The output gate's table: slice 2. -/
theorem gate2_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S8192x1024.Idx) :
    val_main_v28 (F := Ideal) x0 x1 x3 x4 x5 x6 i = pre (n := 8192) x0 x1 x3 x5 (biasSum x4 x6) (2 : Fin 4) (i 0) (i 1) := by
  have h0 : (i 0).val < 8192 := (i 0).isLt
  have h1 : (i 1).val < 1024 := (i 1).isLt
  rw [val_main_v28_apply, val_main_v27_apply]
  exact gates_apply x0 x1 x3 x4 x5 x6 _ (2 : Fin 4) (i 0) (i 1) rfl
    (by show ((i 0).val * 1024 + (i 1).val) / 1024 % 8192 = (i 0).val; omega)
    (by show ((i 0).val * 1024 + (i 1).val) % 1024 = (i 1).val; omega)

/-- The candidate's table: slice 3. -/
theorem gate3_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S8192x1024.Idx) :
    val_main_v36 (F := Ideal) x0 x1 x3 x4 x5 x6 i = pre (n := 8192) x0 x1 x3 x5 (biasSum x4 x6) (3 : Fin 4) (i 0) (i 1) := by
  have h0 : (i 0).val < 8192 := (i 0).isLt
  have h1 : (i 1).val < 1024 := (i 1).isLt
  rw [val_main_v36_apply, val_main_v35_apply]
  exact gates_apply x0 x1 x3 x4 x5 x6 _ (3 : Fin 4) (i 0) (i 1) rfl
    (by show ((i 0).val * 1024 + (i 1).val) / 1024 % 8192 = (i 0).val; omega)
    (by show ((i 0).val * 1024 + (i 1).val) % 1024 = (i 1).val; omega)

/-- 1 / (1 + exp(−z)) of the input gate's pre-activation is its logistic value. -/
theorem sig0_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S8192x1024.Idx) :
    val_main_v18 (F := Ideal) x0 x1 x3 x4 x5 x6 i
      = Ideal.logistic (pre (n := 8192) x0 x1 x3 x5 (biasSum x4 x6) (0 : Fin 4) (i 0) (i 1)) := by
  rw [val_main_v18_apply, val_main_v17_apply, val_main_v16_apply, val_main_v15_apply, val_main_v14_apply, val_main_v13_apply, gate0_apply]
  show Ideal.div (Ideal.ofBits .f32 0x3F800000#32) (Ideal.ofBits .f32 0x3F800000#32 + Ideal.exp (-_)) = _
  rw [one_f32]
  rfl

/-- The same for the forget gate. -/
theorem sig1_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S8192x1024.Idx) :
    val_main_v26 (F := Ideal) x0 x1 x3 x4 x5 x6 i
      = Ideal.logistic (pre (n := 8192) x0 x1 x3 x5 (biasSum x4 x6) (1 : Fin 4) (i 0) (i 1)) := by
  rw [val_main_v26_apply, val_main_v25_apply, val_main_v24_apply, val_main_v23_apply, val_main_v22_apply, val_main_v21_apply, gate1_apply]
  show Ideal.div (Ideal.ofBits .f32 0x3F800000#32) (Ideal.ofBits .f32 0x3F800000#32 + Ideal.exp (-_)) = _
  rw [one_f32]
  rfl

/-- The same for the output gate. -/
theorem sig2_apply (x0 x1 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) (i : S8192x1024.Idx) :
    val_main_v34 (F := Ideal) x0 x1 x3 x4 x5 x6 i
      = Ideal.logistic (pre (n := 8192) x0 x1 x3 x5 (biasSum x4 x6) (2 : Fin 4) (i 0) (i 1)) := by
  rw [val_main_v34_apply, val_main_v33_apply, val_main_v32_apply, val_main_v31_apply, val_main_v30_apply, val_main_v29_apply, gate2_apply]
  show Ideal.div (Ideal.ofBits .f32 0x3F800000#32) (Ideal.ofBits .f32 0x3F800000#32 + Ideal.exp (-_)) = _
  rw [one_f32]
  rfl

/-- The reference's new cell state is `cellOf` of the arguments. -/
theorem cell_eq (x0 x1 x2 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) :
    val_main_v40 (F := Ideal) x0 x1 x2 x3 x4 x5 x6 = cellOf (n := 8192) x0 x1 x2 x3 x5 (biasSum x4 x6) := by
  funext i
  rw [val_main_v40_apply, val_main_v38_apply, val_main_v39_apply, val_main_v37_apply, sig1_apply, sig0_apply, gate3_apply]
  rfl

/-- The reference's new hidden state is `hiddenOf` of the arguments. -/
theorem hidden_eq (x0 x1 x2 : (⟨S8192x1024, .f32⟩ : BufTy).Contents (Elt Ideal)) (x3 : (⟨S4x1024x1024, .f32⟩ : BufTy).Contents (Elt Ideal)) (x4 : (⟨S4x1024, .f32⟩ : BufTy).Contents (Elt Ideal)) (x5 : (⟨S4x1024x1024, .f32⟩ : BufTy).Contents (Elt Ideal)) (x6 : (⟨S4x1024, .f32⟩ : BufTy).Contents (Elt Ideal)) :
    val_main_v42 (F := Ideal) x0 x1 x2 x3 x4 x5 x6 = hiddenOf (n := 8192) x0 x1 x2 x3 x5 (biasSum x4 x6) := by
  funext i
  rw [val_main_v42_apply, val_main_v41_apply, sig2_apply, cell_eq]
  rfl

end Cert.ReferenceIdeal.RefValue

end
-- ==== Proof.LibRowRowDot.lean ====
/-
  A matrix product that contracts the SECOND axis of both operands, read at an entry.

  For the dimension numbers that contract axis 1 of an M × K matrix against axis 1 of an N × K matrix (the product of
  the left operand with the right operand's transpose, no batch axis) the sum over the product's contraction index is
  the sum over `k : Fin K` of `l (a, k) · r (b, k)`. Stated for ANY record with those dimension numbers, whatever the
  three extents; the forms for a `tpu.matmul` into a zero accumulator and for the host's `dot_general` at the ideal
  values follow.
-/
import Idealize.ShloMosaic.PureOps.Ideal.Laws
import Idealize.ShloMosaic.Lib.ValueIdx

noncomputable section

namespace Cert.LibRowRowDot

open Idealize.ShloMosaic Idealize.ShloMosaic.ValueIdx

variable {M K N : Nat}

/-- The sum over the contraction index is the sum over `k : Fin K` of `l (a, k) * r (b, k)`: each operand keeps its
    first axis (the result's row for the left one, the result's column for the right one) and runs its second. -/
theorem dot_sum (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal) (a : Fin M) (b : Fin N) :
    ∑ k : d.contr.Idx, l (d.lhsIdx (ix2 a b) k) * r (d.rhsIdx (ix2 a b) k) = ∑ k : Fin K, l (ix2 a k) * r (ix2 b k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  -- the left operand's kept axis (its first) reads the result's row index
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  -- the right operand's kept axis (its first) reads the result's column index
  have r0 : ∀ q : d.contr.Idx, (d.rhsIdx (ix2 a b) q 0).val = b.val := by
    subst hd; intro q
    unfold DotDims.rhsIdx
    rw [dif_neg (show ¬ (0 : Fin 2) ∈ ([] : List (Fin 2)) from List.not_mem_nil),
      dif_pos (show (0 : Fin 2) ∈ ([0] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 b k := funext fun ax => Fin.ext (by
    match ax with
    | ⟨0, _⟩ => exact r0 _
    | ⟨1, _⟩ => exact (d.rhsIdx_val_of_single hrc _ _).trans hk)
  rw [el, er]

/-- A `tpu.matmul` of those dimension numbers into the zero accumulator, at the ideal values, at entry (a, b). -/
theorem matmul_zero_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (dot_sum d hlc hrc hln hrn hlb hrb l r a b)

/-- The host's `dot_general` of those dimension numbers, at the ideal values, at entry (a, b). -/
theorem dotGeneral_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (sched : HostSchedule)
    (l : FVec Ideal ⟨2, ![M, K]⟩ φ₁) (r : FVec Ideal ⟨2, ![N, K]⟩ φ₂) (a : Fin M) (b : Fin N) :
    FloatOps.dotGeneral d prec sched l r (ix2 a b) = ∑ k : Fin K, l (ix2 a k) * r (ix2 b k) :=
  (Ideal.dotGeneral_apply d prec sched l r (ix2 a b)).trans (dot_sum d hlc hrc hln hrn hlb hrb l r a b)

end Cert.LibRowRowDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.BodyValue.lean ====
/-
  What one grid point's body computes, entry by entry, at the ideal values.

  The body holds a 256-row block of x, of h and of c, and the whole weight tensors W, U (4 × 1024 × 1024 each) and the
  summed bias table (4 × 1024). For each gate g it loads slice g of W and of U, multiplies the x block by the transpose of
  the W slice and the h block by the transpose of the U slice (each entry an inner product over the 1024 shared
  coordinates, into a zero accumulator), adds the two products and adds row g of the bias table to every row. That is
  the pre-activation of the cell (`CellSpec.pre` at n = 256), and the gating chain over the four of them gives the two
  stored blocks: the new cell state and the new hidden state of the 256 rows (`CellSpec.cellOf`, `CellSpec.hiddenOf`).
  The changes of float format on the way (the x and h blocks narrowed before the products) are the identity here.
-/
import proofs.«109954_j24601572671658_1_alg».proof.Proof.Gen.KernelIdeal.Frame
import proofs.«109954_j24601572671658_1_alg».proof.Proof.CellSpec
import proofs.«109954_j24601572671658_1_alg».proof.Proof.LibRowRowDot
import proofs.«109954_j24601572671658_1_alg».proof.Proof.LibRowBroadcast
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx Cert.CellSpec

/-- A 1 × 1024 × 1024 slice with its unit axis dropped, at (q, k): the slice at (0, q, k). -/
theorem slice_cast_apply {α : Type} (w : S1x1024x1024.Idx → α) (h : S1x1024x1024.ShapeCasts S1024x1024) (q k : Fin 1024) :
    shapeCast S1024x1024 w h (ix2 q k) = w (ix3 (0 : Fin 1) q k) :=
  shapeCast_apply w h _ _ (by
    rw [Shape.rowMajor_val_three, Shape.rowMajor_val_two]
    show (0 * 1024 + q.val) * 1024 + k.val = q.val * 1024 + k.val
    omega)

/-- One gate's pre-activation from the two narrowed 256-row blocks, the gate's two weight slices and its bias row, at
    row p and hidden unit q: the two inner products over k plus the bias entry. -/
theorem gate_core (d : DotDims S256x1024 S1024x1024 S256x1024)
    (hlc : d.lhsContracting = [1]) (hrc : d.rhsContracting = [1])
    (hln : d.lhsNonContracting = [0]) (hrn : d.rhsNonContracting = [0])
    (hlb : d.lhsBatch = []) (hrb : d.rhsBatch = [])
    (hsc : S1x1024x1024.ShapeCasts S1024x1024) (h1 : S1x1024.ShapeCasts S1024) (h2 : S1024.ShapeCasts S1x1024)
    (hb : S1x1024.Broadcasts S256x1024)
    (l1 l2 : FVec Ideal S256x1024 .bf16) (w u : FVec Ideal S1x1024x1024 .bf16) (β : FVec Ideal S1x1024 .f32)
    (p : Fin 256) (q : Fin 1024) :
    addf (addf (matmul d none l1 (shapeCast S1024x1024 w hsc) (constant S256x1024 .f32 0x00000000#32))
               (matmul d none l2 (shapeCast S1024x1024 u hsc) (constant S256x1024 .f32 0x00000000#32)))
         (broadcastTo S256x1024 (shapeCast S1x1024 (shapeCast S1024 β h1) h2) hb) (ix2 p q)
      = ((∑ k : Fin 1024, l1 (ix2 p k) * w (ix3 (0 : Fin 1) q k)) + (∑ k : Fin 1024, l2 (ix2 p k) * u (ix3 (0 : Fin 1) q k)))
          + β (ix2 (0 : Fin 1) q) := by
  show (FloatOps.matmul d none l1 (shapeCast S1024x1024 w hsc) (constant S256x1024 .f32 0x00000000#32) (ix2 p q)
        + FloatOps.matmul d none l2 (shapeCast S1024x1024 u hsc) (constant S256x1024 .f32 0x00000000#32) (ix2 p q))
        + broadcastTo S256x1024 (shapeCast S1x1024 (shapeCast S1024 β h1) h2) hb (ix2 p q) = _
  rw [Cert.LibRowRowDot.matmul_zero_apply d hlc hrc hln hrn hlb hrb, Cert.LibRowRowDot.matmul_zero_apply d hlc hrc hln hrn hlb hrb,
    shapeCast_shapeCast, RowBroadcast.broadcastTo_row]
  simp only [slice_cast_apply]

/-! ## The payloads at an entry -/

/-- Slice `g` of a 4 × 1024 × 1024 tensor, loaded as a 1 × 1024 × 1024 block, at (0, q, k): the tensor at (g, q, k). -/
theorem slice_ld3 {Val : EltTy → Type} {e : EltTy} (o : Nat) (g : Fin 4) (hg : g.val = o)
    (inb : ∀ a, (![o, 0, 0] : Fin 3 → Nat) a + S1x1024x1024.size a ≤ S4x1024x1024.size a)
    (x : S4x1024x1024.Idx → Val e) (q k : Fin 1024) :
    View.ld x (Rect.unit (s := S4x1024x1024) ![o, 0, 0] S1x1024x1024.size inb) (ix3 (0 : Fin 1) q k) = x (ix3 g q k) :=
  congrArg x (funext fun a => Fin.ext (by
    match a with
    | ⟨0, _⟩ => show o + 1 * 0 = g.val; omega
    | ⟨1, _⟩ => show 0 + 1 * q.val = q.val; omega
    | ⟨2, _⟩ => show 0 + 1 * k.val = k.val; omega))

/-- Row `g` of a 4 × 1024 table, loaded as a 1 × 1024 block, at (0, q): the table at (g, q). -/
theorem row_ld2 {Val : EltTy → Type} {e : EltTy} (o : Nat) (g : Fin 4) (hg : g.val = o)
    (inb : ∀ a, (![o, 0] : Fin 2 → Nat) a + S1x1024.size a ≤ S4x1024.size a)
    (x : S4x1024.Idx → Val e) (q : Fin 1024) :
    View.ld x (Rect.unit (s := S4x1024) ![o, 0] S1x1024.size inb) (ix2 (0 : Fin 1) q) = x (ix2 g q) :=
  congrArg x (funext fun a => Fin.ext (by
    match a with
    | ⟨0, _⟩ => show o + 1 * 0 = g.val; omega
    | ⟨1, _⟩ => show 0 + 1 * q.val = q.val; omega))

/-- The two inner products against slice `g` of the weight tensors plus entry `g` of the bias table, the slices and the
    row read through the body's loads: gate `g`'s pre-activation over the 256-row blocks. -/
theorem pre_slice (o : Nat) (g : Fin 4) (hg : g.val = o)
    (inb3 : ∀ a, (![o, 0, 0] : Fin 3 → Nat) a + S1x1024x1024.size a ≤ S4x1024x1024.size a)
    (inb2 : ∀ a, (![o, 0] : Fin 2 → Nat) a + S1x1024.size a ≤ S4x1024.size a)
    (l1 l2 : S256x1024.Idx → EReal) (x3 x4 : Vec Ideal S4x1024x1024 .bf16) (x5 : Vec Ideal S4x1024 .f32)
    (p : Fin 256) (q : Fin 1024) :
    ((∑ k : Fin 1024, l1 (ix2 p k) * View.ld x3 (Rect.unit (s := S4x1024x1024) ![o, 0, 0] S1x1024x1024.size inb3) (ix3 (0 : Fin 1) q k))
        + (∑ k : Fin 1024, l2 (ix2 p k) * View.ld x4 (Rect.unit (s := S4x1024x1024) ![o, 0, 0] S1x1024x1024.size inb3) (ix3 (0 : Fin 1) q k)))
        + View.ld x5 (Rect.unit (s := S4x1024) ![o, 0] S1x1024.size inb2) (ix2 (0 : Fin 1) q)
      = pre (n := 256) l1 l2 x3 x4 x5 g p q := by
  unfold pre
  refine congrArg₂ (· + ·) (congrArg₂ (· + ·) (Finset.sum_congr rfl fun k _ => ?_) (Finset.sum_congr rfl fun k _ => ?_)) ?_
  · exact congrArg (l1 (ix2 p k) * ·) (slice_ld3 o g hg inb3 x3 q k)
  · exact congrArg (l2 (ix2 p k) * ·) (slice_ld3 o g hg inb3 x4 q k)
  · exact row_ld2 o g hg inb2 x5 q

/-- The first gate's pre-activation, as the body's first part hands it on. -/
theorem pay5_apply (v0 v2 : Vec Ideal S256x1024 .f32) (v5 v7 : FVec Ideal S1x1024x1024 .bf16) (v12 : FVec Ideal S1x1024 .f32)
    (p : Fin 256) (q : Fin 1024) :
    k0_pay5 (F := Ideal) v0 v2 v5 v7 v12 (ix2 p q)
      = ((∑ k : Fin 1024, v0 (ix2 p k) * v5 (ix3 (0 : Fin 1) q k)) + (∑ k : Fin 1024, v2 (ix2 p k) * v7 (ix3 (0 : Fin 1) q k)))
          + v12 (ix2 (0 : Fin 1) q) := by
  unfold k0_pay5
  exact gate_core _ rfl rfl rfl rfl rfl rfl _ _ _ _ (k0_pay3 (F := Ideal) v0) (k0_pay4 (F := Ideal) v2) v5 v7 v12 p q

/-- The second gate's. -/
theorem pay6_apply (v0 v2 : Vec Ideal S256x1024 .f32) (v17 v19 : FVec Ideal S1x1024x1024 .bf16) (v24 : FVec Ideal S1x1024 .f32)
    (p : Fin 256) (q : Fin 1024) :
    k0_pay6 (F := Ideal) v0 v2 v17 v19 v24 (ix2 p q)
      = ((∑ k : Fin 1024, v0 (ix2 p k) * v17 (ix3 (0 : Fin 1) q k)) + (∑ k : Fin 1024, v2 (ix2 p k) * v19 (ix3 (0 : Fin 1) q k)))
          + v24 (ix2 (0 : Fin 1) q) := by
  unfold k0_pay6
  exact gate_core _ rfl rfl rfl rfl rfl rfl _ _ _ _ (k0_pay3 (F := Ideal) v0) (k0_pay4 (F := Ideal) v2) v17 v19 v24 p q

/-- The stored cell-state payload: forget gate (second pre-activation) times the old state plus input gate (first)
    times tanh of the fourth pre-activation, which this payload computes itself. -/
theorem pay1_apply (v1 v3 : FVec Ideal S256x1024 .bf16) (v4 : Vec Ideal S256x1024 .f32) (v16 v28 : FVec Ideal S256x1024 .f32)
    (v41 v43 : FVec Ideal S1x1024x1024 .bf16) (v48 : FVec Ideal S1x1024 .f32) (p : Fin 256) (q : Fin 1024) :
    k0_pay1 (F := Ideal) v1 v3 v4 v16 v28 v41 v43 v48 (ix2 p q)
      = Ideal.logistic (v28 (ix2 p q)) * v4 (ix2 p q)
        + Ideal.logistic (v16 (ix2 p q)) * Ideal.tanh
            (((∑ k : Fin 1024, v1 (ix2 p k) * v41 (ix3 (0 : Fin 1) q k)) + (∑ k : Fin 1024, v3 (ix2 p k) * v43 (ix3 (0 : Fin 1) q k)))
              + v48 (ix2 (0 : Fin 1) q)) := by
  unfold k0_pay1
  exact congrArg (fun z => Ideal.logistic (v28 (ix2 p q)) * v4 (ix2 p q) + Ideal.logistic (v16 (ix2 p q)) * Ideal.tanh z)
    (gate_core _ rfl rfl rfl rfl rfl rfl _ _ _ _ v1 v3 v41 v43 v48 p q)

/-- The stored hidden-state payload: output gate (third pre-activation, computed here) times tanh of the cell payload. -/
theorem pay2_apply (v1 v3 : FVec Ideal S256x1024 .bf16) (v4 : Vec Ideal S256x1024 .f32) (v16 v28 : FVec Ideal S256x1024 .f32)
    (v29 v31 : FVec Ideal S1x1024x1024 .bf16) (v36 : FVec Ideal S1x1024 .f32)
    (v41 v43 : FVec Ideal S1x1024x1024 .bf16) (v48 : FVec Ideal S1x1024 .f32) (p : Fin 256) (q : Fin 1024) :
    k0_pay2 (F := Ideal) v1 v3 v4 v16 v28 v29 v31 v36 v41 v43 v48 (ix2 p q)
      = Ideal.logistic
            (((∑ k : Fin 1024, v1 (ix2 p k) * v29 (ix3 (0 : Fin 1) q k)) + (∑ k : Fin 1024, v3 (ix2 p k) * v31 (ix3 (0 : Fin 1) q k)))
              + v36 (ix2 (0 : Fin 1) q))
          * Ideal.tanh (k0_pay1 (F := Ideal) v1 v3 v4 v16 v28 v41 v43 v48 (ix2 p q)) := by
  unfold k0_pay2
  exact congrArg (fun z => Ideal.logistic z * Ideal.tanh (k0_pay1 (F := Ideal) v1 v3 v4 v16 v28 v41 v43 v48 (ix2 p q)))
    (gate_core _ rfl rfl rfl rfl rfl rfl _ _ _ _ v1 v3 v29 v31 v36 p q)

/-! ## The two stored blocks -/

theorem zero_off : (![0, 0] : Fin 2 → Nat) = fun _ => 0 := funext fun a => by fin_cases a <;> rfl

/-- What the body leaves in the cell-state window's buffer is the cell state of its 256 rows. -/
theorem cell_block (x0 x1 x2 : Vec Ideal S256x1024 .f32) (x3 x4 : Vec Ideal S4x1024x1024 .bf16) (x5 : Vec Ideal S4x1024 .f32) :
    out0_7 (F := Ideal) x0 x1 x2 x3 x4 x5 = cellOf (n := 256) x0 x1 x2 x3 x4 x5 := by
  unfold out0_7
  rw [View.canon_unit_zero zero_off]
  simp only [View.ld_unit_zero (S := S256x1024) zero_off]
  funext i
  obtain ⟨p, q, rfl⟩ : ∃ (p : Fin 256) (q : Fin 1024), i = ix2 p q := ⟨i 0, i 1, eq_ix2 i⟩
  rw [pay1_apply, pay5_apply, pay6_apply]
  rw [pre_slice 1 (1 : Fin 4) rfl _ _ x0 x1 x3 x4 x5 p q, pre_slice 0 (0 : Fin 4) rfl _ _ x0 x1 x3 x4 x5 p q,
    pre_slice 3 (3 : Fin 4) rfl _ _ (k0_pay3 (F := Ideal) x0) (k0_pay4 (F := Ideal) x1) x3 x4 x5 p q]
  rfl

/-- What the body leaves in the hidden-state window's buffer is the hidden state of its 256 rows. -/
theorem hidden_block (x0 x1 x2 : Vec Ideal S256x1024 .f32) (x3 x4 : Vec Ideal S4x1024x1024 .bf16) (x5 : Vec Ideal S4x1024 .f32) :
    out0_6 (F := Ideal) x0 x1 x2 x3 x4 x5 = hiddenOf (n := 256) x0 x1 x2 x3 x4 x5 := by
  unfold out0_6
  rw [View.canon_unit_zero zero_off]
  simp only [View.ld_unit_zero (S := S256x1024) zero_off]
  funext i
  obtain ⟨p, q, rfl⟩ : ∃ (p : Fin 256) (q : Fin 1024), i = ix2 p q := ⟨i 0, i 1, eq_ix2 i⟩
  rw [pay2_apply, pay1_apply, pay5_apply, pay6_apply]
  rw [pre_slice 2 (2 : Fin 4) rfl _ _ (k0_pay3 (F := Ideal) x0) (k0_pay4 (F := Ideal) x1) x3 x4 x5 p q,
    pre_slice 1 (1 : Fin 4) rfl _ _ x0 x1 x3 x4 x5 p q, pre_slice 0 (0 : Fin 4) rfl _ _ x0 x1 x3 x4 x5 p q,
    pre_slice 3 (3 : Fin 4) rfl _ _ (k0_pay3 (F := Ideal) x0) (k0_pay4 (F := Ideal) x1) x3 x4 x5 p q]
  rfl

end Cert.KernelIdeal.BodyValue

end
-- ==== Proof.KernelValue.lean ====
/-
  The kernel's two result arrays after the run, as functions of the arguments.

  The grid has 32 points; point t holds rows 256·t … 256·t + 255 of x, h and c and writes back the same rows of the two
  results; the weight tensors and the bias table are whole at every point (their block index is 0 on every axis). What a
  point leaves in its two output buffers is the cell of its 256 rows (`BodyValue`), and the cell at a row reads that row
  of x, h and c only (`CellSpec.cellOf_block`), so what point t writes back is block t of the cell of the WHOLE arrays.
  The 32 blocks cover the 8192 rows, hence each result array ends as the cell of the whole arrays. Before the region the
  program narrows W and U (the identity at the ideal values) and adds the two bias tables, so in terms of the arguments
  the weights are W and U themselves and the bias table is the entrywise sum.
-/
import proofs.«109954_j24601572671658_1_alg».proof.Proof.Gen.KernelIdeal.Value
import proofs.«109954_j24601572671658_1_alg».proof.Proof.BodyValue
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.ValueIdx Cert.CellSpec Cert.KernelIdeal.BodyValue Idealize.ShloMosaic.StableHlo
open Idealize.ShloMosaic.Pipeline (Dat)

variable (m : (ℓ : Loc nD τ sig) → Buf (Elt Ideal) ℓ) (ρ : Dev nD → PrngReg)

/-- The printed index maps, decided over the 32 points: the three streamed inputs and the two outputs sit at block
    (t, 0); the two weight tensors and the bias table at block 0 on every axis. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_6.index t (0 : Fin 2) = win0_7.index t (0 : Fin 2) ∧ win0_6.index t (1 : Fin 2) = 0
    ∧ win0_7.index t (1 : Fin 2) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_7.index t (0 : Fin 2) ≤ 31 :=
  (by decide +kernel : ∀ t : Fin grid0.N, _)

/-- Every row block is some point's. -/
theorem idx_onto6 : ∀ q0 : Fin 32, ∃ t : Fin cfg0.N, win0_6.index t = ![q0.val, 0] :=
  (by decide +kernel : ∀ q0 : Fin 32, ∃ t : Fin grid0.N, win0_6.index t = ![q0.val, 0])
theorem idx_onto7 : ∀ q0 : Fin 32, ∃ t : Fin cfg0.N, win0_7.index t = ![q0.val, 0] :=
  (by decide +kernel : ∀ q0 : Fin 32, ∃ t : Fin grid0.N, win0_7.index t = ![q0.val, 0])

/-! ## The resident operands are whole at every point -/

theorem whole3 (c : Dev nD) (t : Fin cfg0.N) : iblk m c 3 t = V m c main_call0_v0 := by
  obtain ⟨e00, e01, e10, e11, e20, e21, e60, e61, e71, e30, e31, e32, e40, e41, e42, e50, e51, e7b⟩ := idx_facts t
  funext y
  show V m c main_call0_v0 (((cfg0.win 3).blk t).view.emb y) = V m c main_call0_v0 y
  exact congrArg (V m c main_call0_v0) (funext fun a => Fin.ext (by
    match a with
    | ⟨0, _⟩ => show win0_3.index t (0 : Fin 3) * 4 + 1 * (y 0).val = (y 0).val; omega
    | ⟨1, _⟩ => show win0_3.index t (1 : Fin 3) * 1024 + 1 * (y 1).val = (y 1).val; omega
    | ⟨2, _⟩ => show win0_3.index t (2 : Fin 3) * 1024 + 1 * (y 2).val = (y 2).val; omega))

theorem whole4 (c : Dev nD) (t : Fin cfg0.N) : iblk m c 4 t = V m c main_call0_v1 := by
  obtain ⟨e00, e01, e10, e11, e20, e21, e60, e61, e71, e30, e31, e32, e40, e41, e42, e50, e51, e7b⟩ := idx_facts t
  funext y
  show V m c main_call0_v1 (((cfg0.win 4).blk t).view.emb y) = V m c main_call0_v1 y
  exact congrArg (V m c main_call0_v1) (funext fun a => Fin.ext (by
    match a with
    | ⟨0, _⟩ => show win0_4.index t (0 : Fin 3) * 4 + 1 * (y 0).val = (y 0).val; omega
    | ⟨1, _⟩ => show win0_4.index t (1 : Fin 3) * 1024 + 1 * (y 1).val = (y 1).val; omega
    | ⟨2, _⟩ => show win0_4.index t (2 : Fin 3) * 1024 + 1 * (y 2).val = (y 2).val; omega))

theorem whole5 (c : Dev nD) (t : Fin cfg0.N) : iblk m c 5 t = V m c main_call0_v2 := by
  obtain ⟨e00, e01, e10, e11, e20, e21, e60, e61, e71, e30, e31, e32, e40, e41, e42, e50, e51, e7b⟩ := idx_facts t
  funext y
  show V m c main_call0_v2 (((cfg0.win 5).blk t).view.emb y) = V m c main_call0_v2 y
  exact congrArg (V m c main_call0_v2) (funext fun a => Fin.ext (by
    match a with
    | ⟨0, _⟩ => show win0_5.index t (0 : Fin 2) * 4 + 1 * (y 0).val = (y 0).val; omega
    | ⟨1, _⟩ => show win0_5.index t (1 : Fin 2) * 1024 + 1 * (y 1).val = (y 1).val; omega))

/-! ## What a point writes back -/

/-- Point t writes back block t of the cell state of the whole arrays. -/
theorem flushed7_eq (c : Dev nD) (t : Fin cfg0.N) :
    (dats m 0 c).flushed 7 t = ((cfg0.win 7).blk t).view.read (Elt Ideal)
      (cellOf (n := 8192) (V m c main_arg0) (V m c main_arg1) (V m c main_arg2) (V m c main_call0_v0) (V m c main_call0_v1) (V m c main_call0_v2)) := by
  rw [Value.flushed7]
  refine (congrArg ((cfg0.win 7).cut (grid0.coords t))
    (cell_block (iblk m c 0 t) (iblk m c 1 t) (iblk m c 2 t) (iblk m c 3 t) (iblk m c 4 t) (iblk m c 5 t))).trans ?_
  obtain ⟨e00, e01, e10, e11, e20, e21, e60, e61, e71, e30, e31, e32, e40, e41, e42, e50, e51, e7b⟩ := idx_facts t
  funext j
  obtain ⟨p, q, rfl⟩ : ∃ (p : Fin 256) (q : Fin 1024), j = ix2 p q := ⟨j 0, j 1, eq_ix2 j⟩
  show cellOf (n := 256) (iblk m c 0 t) (iblk m c 1 t) (iblk m c 2 t) (iblk m c 3 t) (iblk m c 4 t) (iblk m c 5 t) (ix2 p q)
    = cellOf (n := 8192) (V m c main_arg0) (V m c main_arg1) (V m c main_arg2) (V m c main_call0_v0) (V m c main_call0_v1) (V m c main_call0_v2)
        (((cfg0.win 7).blk t).view.emb (ix2 p q))
  have hp : p.val < 256 := p.isLt
  have hq : q.val < 1024 := q.isLt
  -- the row of the whole array that row p of block t is
  obtain ⟨P, hP⟩ : ∃ P : Fin 8192, P.val = win0_7.index t (0 : Fin 2) * 256 + 1 * p.val :=
    ⟨⟨win0_7.index t (0 : Fin 2) * 256 + 1 * p.val, by omega⟩, rfl⟩
  have hemb : ((cfg0.win 7).blk t).view.emb (ix2 p q) = ix2 P q := funext fun a => Fin.ext (by
    match a with
    | ⟨0, _⟩ => show win0_7.index t (0 : Fin 2) * 256 + 1 * p.val = P.val; omega
    | ⟨1, _⟩ => show win0_7.index t (1 : Fin 2) * 1024 + 1 * q.val = q.val; omega)
  rw [hemb]
  have hx : ∀ k : Fin 1024, iblk m c 0 t (ix2 p k) = V m c main_arg0 (ix2 P k) := fun k => by
    show V m c main_arg0 (((cfg0.win 0).blk t).view.emb (ix2 p k)) = V m c main_arg0 (ix2 P k)
    exact congrArg (V m c main_arg0) (funext fun a => Fin.ext (by
      match a with
      | ⟨0, _⟩ => show win0_0.index t (0 : Fin 2) * 256 + 1 * p.val = P.val; omega
      | ⟨1, _⟩ => show win0_0.index t (1 : Fin 2) * 1024 + 1 * k.val = k.val; omega))
  have hh : ∀ k : Fin 1024, iblk m c 1 t (ix2 p k) = V m c main_arg1 (ix2 P k) := fun k => by
    show V m c main_arg1 (((cfg0.win 1).blk t).view.emb (ix2 p k)) = V m c main_arg1 (ix2 P k)
    exact congrArg (V m c main_arg1) (funext fun a => Fin.ext (by
      match a with
      | ⟨0, _⟩ => show win0_1.index t (0 : Fin 2) * 256 + 1 * p.val = P.val; omega
      | ⟨1, _⟩ => show win0_1.index t (1 : Fin 2) * 1024 + 1 * k.val = k.val; omega))
  have hc : iblk m c 2 t (ix2 p q) = V m c main_arg2 (ix2 P q) := by
    show V m c main_arg2 (((cfg0.win 2).blk t).view.emb (ix2 p q)) = V m c main_arg2 (ix2 P q)
    exact congrArg (V m c main_arg2) (funext fun a => Fin.ext (by
      match a with
      | ⟨0, _⟩ => show win0_2.index t (0 : Fin 2) * 256 + 1 * p.val = P.val; omega
      | ⟨1, _⟩ => show win0_2.index t (1 : Fin 2) * 1024 + 1 * q.val = q.val; omega))
  exact cellOf_block (V m c main_arg0) (V m c main_arg1) (V m c main_arg2) (iblk m c 0 t) (iblk m c 1 t) (iblk m c 2 t)
    (V m c main_call0_v0) (V m c main_call0_v1) (iblk m c 3 t) (iblk m c 4 t) (V m c main_call0_v2) (iblk m c 5 t)
    (whole3 m c t) (whole4 m c t) (whole5 m c t) p P q hx hh hc

/-- Point t writes back block t of the hidden state of the whole arrays. -/
theorem flushed6_eq (c : Dev nD) (t : Fin cfg0.N) :
    (dats m 0 c).flushed 6 t = ((cfg0.win 6).blk t).view.read (Elt Ideal)
      (hiddenOf (n := 8192) (V m c main_arg0) (V m c main_arg1) (V m c main_arg2) (V m c main_call0_v0) (V m c main_call0_v1) (V m c main_call0_v2)) := by
  rw [Value.flushed6]
  refine (congrArg ((cfg0.win 6).cut (grid0.coords t))
    (hidden_block (iblk m c 0 t) (iblk m c 1 t) (iblk m c 2 t) (iblk m c 3 t) (iblk m c 4 t) (iblk m c 5 t))).trans ?_
  obtain ⟨e00, e01, e10, e11, e20, e21, e60, e61, e71, e30, e31, e32, e40, e41, e42, e50, e51, e7b⟩ := idx_facts t
  funext j
  obtain ⟨p, q, rfl⟩ : ∃ (p : Fin 256) (q : Fin 1024), j = ix2 p q := ⟨j 0, j 1, eq_ix2 j⟩
  show hiddenOf (n := 256) (iblk m c 0 t) (iblk m c 1 t) (iblk m c 2 t) (iblk m c 3 t) (iblk m c 4 t) (iblk m c 5 t) (ix2 p q)
    = hiddenOf (n := 8192) (V m c main_arg0) (V m c main_arg1) (V m c main_arg2) (V m c main_call0_v0) (V m c main_call0_v1) (V m c main_call0_v2)
        (((cfg0.win 6).blk t).view.emb (ix2 p q))
  have hp : p.val < 256 := p.isLt
  have hq : q.val < 1024 := q.isLt
  -- the row of the whole array that row p of block t is
  obtain ⟨P, hP⟩ : ∃ P : Fin 8192, P.val = win0_7.index t (0 : Fin 2) * 256 + 1 * p.val :=
    ⟨⟨win0_7.index t (0 : Fin 2) * 256 + 1 * p.val, by omega⟩, rfl⟩
  have hemb : ((cfg0.win 6).blk t).view.emb (ix2 p q) = ix2 P q := funext fun a => Fin.ext (by
    match a with
    | ⟨0, _⟩ => show win0_6.index t (0 : Fin 2) * 256 + 1 * p.val = P.val; omega
    | ⟨1, _⟩ => show win0_6.index t (1 : Fin 2) * 1024 + 1 * q.val = q.val; omega)
  rw [hemb]
  have hx : ∀ k : Fin 1024, iblk m c 0 t (ix2 p k) = V m c main_arg0 (ix2 P k) := fun k => by
    show V m c main_arg0 (((cfg0.win 0).blk t).view.emb (ix2 p k)) = V m c main_arg0 (ix2 P k)
    exact congrArg (V m c main_arg0) (funext fun a => Fin.ext (by
      match a with
      | ⟨0, _⟩ => show win0_0.index t (0 : Fin 2) * 256 + 1 * p.val = P.val; omega
      | ⟨1, _⟩ => show win0_0.index t (1 : Fin 2) * 1024 + 1 * k.val = k.val; omega))
  have hh : ∀ k : Fin 1024, iblk m c 1 t (ix2 p k) = V m c main_arg1 (ix2 P k) := fun k => by
    show V m c main_arg1 (((cfg0.win 1).blk t).view.emb (ix2 p k)) = V m c main_arg1 (ix2 P k)
    exact congrArg (V m c main_arg1) (funext fun a => Fin.ext (by
      match a with
      | ⟨0, _⟩ => show win0_1.index t (0 : Fin 2) * 256 + 1 * p.val = P.val; omega
      | ⟨1, _⟩ => show win0_1.index t (1 : Fin 2) * 1024 + 1 * k.val = k.val; omega))
  have hc : iblk m c 2 t (ix2 p q) = V m c main_arg2 (ix2 P q) := by
    show V m c main_arg2 (((cfg0.win 2).blk t).view.emb (ix2 p q)) = V m c main_arg2 (ix2 P q)
    exact congrArg (V m c main_arg2) (funext fun a => Fin.ext (by
      match a with
      | ⟨0, _⟩ => show win0_2.index t (0 : Fin 2) * 256 + 1 * p.val = P.val; omega
      | ⟨1, _⟩ => show win0_2.index t (1 : Fin 2) * 1024 + 1 * q.val = q.val; omega))
  exact hiddenOf_block (V m c main_arg0) (V m c main_arg1) (V m c main_arg2) (iblk m c 0 t) (iblk m c 1 t) (iblk m c 2 t)
    (V m c main_call0_v0) (V m c main_call0_v1) (iblk m c 3 t) (iblk m c 4 t) (V m c main_call0_v2) (iblk m c 5 t)
    (whole3 m c t) (whole4 m c t) (whole5 m c t) p P q hx hh hc

/-! ## The blocks cover the arrays -/

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v0_2).slice (win0_7.rect t)).set ↔ _
  rw [View.set_slice_whole, Rect.mem_set_unit]
  exact Iff.rfl

/-- Every entry of the array lies in some point's block: row r in the block of point r / 256. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := idx_onto7 ⟨(i 0).val / 256, by omega⟩
  have q0 : win0_7.index t (0 : Fin 2) = (i 0).val / 256 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- An index of the array is in point `t`'s block iff each coordinate is in the block's range on its axis. -/
theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v0_0).slice (win0_6.rect t)).set ↔ _
  rw [View.set_slice_whole, Rect.mem_set_unit]
  exact Iff.rfl

/-- Every entry of the array lies in some point's block: row r in the block of point r / 256. -/
theorem cover6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  obtain ⟨t, ht⟩ := idx_onto6 ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-! ## The arrays as the region finds them, in terms of the arguments -/

/-- The narrowed copy of W holds W's numbers. -/
theorem V_W (c : Dev nD) : (V m c main_call0_v0 : S4x1024x1024.Idx → EReal) = m ((c : Thread nD τ).loc main_arg3) := by
  dsimp only [V, hostOps0]; after_results; rfl

/-- The narrowed copy of U holds U's numbers. -/
theorem V_U (c : Dev nD) : (V m c main_call0_v1 : S4x1024x1024.Idx → EReal) = m ((c : Thread nD τ).loc main_arg5) := by
  dsimp only [V, hostOps0]; after_results; rfl

/-- The bias table the kernel reads is the entrywise sum of the two bias arguments. -/
theorem V_bias (c : Dev nD) : (V m c main_call0_v2 : S4x1024.Idx → EReal)
    = biasSum (m ((c : Thread nD τ).loc main_arg4)) (m ((c : Thread nD τ).loc main_arg6)) := by
  dsimp only [V, hostOps0]; after_results; rfl

/-! ## The result arrays after the run -/

theorem final_cell (c : Dev nD) : (dats m 0 c).arrAt 7 cfg0.N = (cellOf (n := 8192) (m ((c : Thread nD τ).loc main_arg0)) (m ((c : Thread nD τ).loc main_arg1)) (m ((c : Thread nD τ).loc main_arg2))
          (m ((c : Thread nD τ).loc main_arg3)) (m ((c : Thread nD τ).loc main_arg5))
          (biasSum (m ((c : Thread nD τ).loc main_arg4)) (m ((c : Thread nD τ).loc main_arg6)))) := by
  rw [(dats m 0 c).arrAt_eq_of_cover 7 _ (fun t _ => flushed7_eq m c t) cover7,
    V_main_arg0, V_main_arg1, V_main_arg2, V_W, V_U, V_bias]

theorem final_hidden (c : Dev nD) : (dats m 0 c).arrAt 6 cfg0.N = (hiddenOf (n := 8192) (m ((c : Thread nD τ).loc main_arg0)) (m ((c : Thread nD τ).loc main_arg1)) (m ((c : Thread nD τ).loc main_arg2))
          (m ((c : Thread nD τ).loc main_arg3)) (m ((c : Thread nD τ).loc main_arg5))
          (biasSum (m ((c : Thread nD τ).loc main_arg4)) (m ((c : Thread nD τ).loc main_arg6)))) := by
  rw [(dats m 0 c).arrAt_eq_of_cover 6 _ (fun t _ => flushed6_eq m c t) cover6,
    V_main_arg0, V_main_arg1, V_main_arg2, V_W, V_U, V_bias]

/-- The kernel's run: every weakly fair execution ends with the hidden state in the first result array (which the
    program returns twice), the cell state in the second, and the arguments unchanged. -/
theorem run : θ_run defs (onTc (τ := τ) (main (F := Ideal))) ⟨m, fun _ => 0, ρ⟩ fun r => ∀ c : Dev nD,
      r.2.mem ((c : Thread nD τ).loc main_v0_0) = (hiddenOf (n := 8192) (m ((c : Thread nD τ).loc main_arg0)) (m ((c : Thread nD τ).loc main_arg1)) (m ((c : Thread nD τ).loc main_arg2))
          (m ((c : Thread nD τ).loc main_arg3)) (m ((c : Thread nD τ).loc main_arg5))
          (biasSum (m ((c : Thread nD τ).loc main_arg4)) (m ((c : Thread nD τ).loc main_arg6))))
      ∧ r.2.mem ((c : Thread nD τ).loc main_v0_0) = (hiddenOf (n := 8192) (m ((c : Thread nD τ).loc main_arg0)) (m ((c : Thread nD τ).loc main_arg1)) (m ((c : Thread nD τ).loc main_arg2))
          (m ((c : Thread nD τ).loc main_arg3)) (m ((c : Thread nD τ).loc main_arg5))
          (biasSum (m ((c : Thread nD τ).loc main_arg4)) (m ((c : Thread nD τ).loc main_arg6))))
      ∧ r.2.mem ((c : Thread nD τ).loc main_v0_2) = (cellOf (n := 8192) (m ((c : Thread nD τ).loc main_arg0)) (m ((c : Thread nD τ).loc main_arg1)) (m ((c : Thread nD τ).loc main_arg2))
          (m ((c : Thread nD τ).loc main_arg3)) (m ((c : Thread nD τ).loc main_arg5))
          (biasSum (m ((c : Thread nD τ).loc main_arg4)) (m ((c : Thread nD τ).loc main_arg6))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_hidden m c), (h c).1.trans (final_hidden m c),
      (h c).2.1.trans (final_cell m c), (h c).2.2⟩)
    (Cert.KernelIdeal.Value.run_blocks m ρ)

end Cert.KernelIdeal.RunValue

end
-- ==== Proof.lean ====
/-
  A gated recurrent cell over a batch of 8192 rows: the kernel against its array-level reference.

  Both programs take x, h, c (8192 × 1024 each), two weight tensors W, U (4 × 1024 × 1024, one slice per gate) and two
  bias tables (4 × 1024). For gate g, row b and hidden unit j the pre-activation is
      z_g(b, j) = Σ_k x(b, k) · W(g, j, k) + Σ_k h(b, k) · U(g, j, k) + bW(g, j) + bU(g, j),
  and with σ the logistic function the results are
      c'(b, j) = σ(z₁) · c(b, j) + σ(z₀) · tanh(z₃),      h'(b, j) = σ(z₂) · tanh(c'(b, j)),
  returned as (h', h', c').

  The kernel walks the rows in 32 blocks of 256, keeps the weights and the pre-summed bias table whole, and for each
  gate multiplies the block of x and of h by the transposed weight slices, adds the products and then the bias row. The
  reference forms the four gates for all rows at once, with the factors of each product in the other order and each
  bias added to its own product before the two halves are added. The two groupings of the sum are the same extended
  real by commutativity and associativity of addition and commutativity of multiplication, which hold at the
  infinities too; the logistic function the reference spells out as 1 / (1 + exp(−z)) is the kernel's; the narrowing of
  the operands before the products changes nothing at the ideal values. So the two programs end with equal results for
  every input, and the finiteness of the inputs is never used.

  `CellSpec` states the cell as functions of the argument arrays; `RefIsSpec` reads the reference's run as those
  functions; `BodyValue` reads one grid point's body as the cell of its 256 rows; `KernelValue` carries the blocks to
  the whole result arrays. Here the two runs are set side by side.
-/
import proofs.«109954_j24601572671658_1_alg».proof.Defs
import proofs.«109954_j24601572671658_1_alg».proof.Proof.Gen.Kernel
import proofs.«109954_j24601572671658_1_alg».proof.Proof.Gen.Kernel.Skeleton
import proofs.«109954_j24601572671658_1_alg».proof.Proof.Gen.Kernel.Launch
import proofs.«109954_j24601572671658_1_alg».proof.Proof.Gen.Kernel.Points
import proofs.«109954_j24601572671658_1_alg».proof.Proof.Gen.Kernel.Frame
import proofs.«109954_j24601572671658_1_alg».proof.Proof.Gen.KernelIdeal
import proofs.«109954_j24601572671658_1_alg».proof.Proof.Gen.KernelIdeal.Skeleton
import proofs.«109954_j24601572671658_1_alg».proof.Proof.Gen.KernelIdeal.Launch
import proofs.«109954_j24601572671658_1_alg».proof.Proof.Gen.KernelIdeal.Points
import proofs.«109954_j24601572671658_1_alg».proof.Proof.Gen.KernelIdeal.Frame
import proofs.«109954_j24601572671658_1_alg».proof.Proof.Gen.ReferenceIdeal
import proofs.«109954_j24601572671658_1_alg».proof.Proof.Gen.KernelIdeal.Value
import proofs.«109954_j24601572671658_1_alg».proof.Proof.Gen.ReferenceIdeal.Run
import proofs.«109954_j24601572671658_1_alg».proof.Proof.Gen.ReferenceIdeal.Read
import proofs.«109954_j24601572671658_1_alg».proof.Proof.Gen.Pre_finite_inputs
import proofs.«109954_j24601572671658_1_alg».proof.Proof.CellSpec
import proofs.«109954_j24601572671658_1_alg».proof.Proof.RefIsSpec
import proofs.«109954_j24601572671658_1_alg».proof.Proof.KernelValue
import Idealize.ShloMosaic.Adequacy
import Idealize.ShloMosaic.Init

noncomputable section

namespace Cert.Proof

open Idealize.ShloMosaic Idealize.ShloMosaic.TcCoe Idealize.SL.Sem Cert.CellSpec

/-- The word-level kernel terminates without a fault and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of array operations: its run, with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the seven arguments both programs end with the hidden state (twice) and the cell state
    of `CellSpec` in their result arrays: the kernel by `KernelValue.run`, the reference by its run read through
    `RefIsSpec`. -/
theorem algebraic : Cert.algebraic_KernelIdeal_ReferenceIdeal := by
  intro m ρ m' ρ' _ hagree
  refine ⟨fun c => hiddenOf (n := 8192) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (biasSum (m ((c.tc : Thread Cert.KernelIdeal.nD Cert.KernelIdeal.τ).loc Cert.KernelIdeal.main_arg4))
        (m ((c.tc : Thread Cert.KernelIdeal.nD Cert.KernelIdeal.τ).loc Cert.KernelIdeal.main_arg6))),
    fun c => hiddenOf (n := 8192) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (biasSum (m ((c.tc : Thread Cert.KernelIdeal.nD Cert.KernelIdeal.τ).loc Cert.KernelIdeal.main_arg4))
        (m ((c.tc : Thread Cert.KernelIdeal.nD Cert.KernelIdeal.τ).loc Cert.KernelIdeal.main_arg6))),
    fun c => cellOf (n := 8192) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (biasSum (m ((c.tc : Thread Cert.KernelIdeal.nD Cert.KernelIdeal.τ).loc Cert.KernelIdeal.main_arg4))
        (m ((c.tc : Thread Cert.KernelIdeal.nD Cert.KernelIdeal.τ).loc Cert.KernelIdeal.main_arg6))),
    Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  have hh : Cert.ReferenceIdeal.Value.res_main_v42 m' c = hiddenOf (n := 8192) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (biasSum (m ((c.tc : Thread Cert.KernelIdeal.nD Cert.KernelIdeal.τ).loc Cert.KernelIdeal.main_arg4))
        (m ((c.tc : Thread Cert.KernelIdeal.nD Cert.KernelIdeal.τ).loc Cert.KernelIdeal.main_arg6))) := by
    rw [Cert.ReferenceIdeal.Read.val_main_v42_eq, Cert.ReferenceIdeal.RefValue.hidden_eq, a0, a1, a2, a3, a4, a5, a6]
  refine ⟨(h c).1.trans hh, (h c).2.1.trans hh, (h c).2.2.1.trans ?_, (h c).2.2.2⟩
  rw [Cert.ReferenceIdeal.Read.val_main_v40_eq, Cert.ReferenceIdeal.RefValue.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
